-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x4096 : Shape := ⟨2, ![1024, 4096]⟩
abbrev S4096x1024 : Shape := ⟨2, ![4096, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S16384x1024 .f32) (main_arg1 : FVec F S16384x1024 .f32) (main_arg2 : FVec F S16384x1024 .f32) (main_arg3 : FVec F S1024x4096 .f32) (main_arg4 : FVec F S4096x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== Kernel.lean ====
abbrev S16384x1024 : Shape := ⟨2, ![16384, 1024]⟩
abbrev S1024x4096 : Shape := ⟨2, ![1024, 4096]⟩
abbrev S4096x1024 : Shape := ⟨2, ![4096, 1024]⟩
abbrev S256x1024 : Shape := ⟨2, ![256, 1024]⟩
abbrev S256x4096 : Shape := ⟨2, ![256, 4096]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x4096, .f32⟩
  | .hbm, ⟨4, _⟩ => ⟨S4096x1024, .f32⟩
  | .hbm, ⟨5, _⟩ => ⟨S1024x4096, .bf16⟩
  | .hbm, ⟨6, _⟩ => ⟨S4096x1024, .bf16⟩
  | .hbm, ⟨7, _⟩ => ⟨S16384x1024, .f32⟩
  | .hbm, ⟨8, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S4096x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  slices_S256x4096_o0_1024_S256x1024 : S256x4096.Slices ![0, 1024] S256x1024
  slices_S256x4096_o0_0_S256x1024 : S256x4096.Slices ![0, 0] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S16384x1024.size a
  hwx0_5 : ∀ i : grid0.Coords, EltTy.bits .f32 = 32 ∨ (Rect.block (s := S16384x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x4096, .f32⟩
  | .hbm, ⟨4, _⟩ => ⟨S4096x1024, .f32⟩
  | .hbm, ⟨5, _⟩ => ⟨S16384x4096, .f32⟩
  | .hbm, ⟨6, _⟩ => ⟨S1024x4096, .f32⟩
  | .hbm, ⟨7, _⟩ => ⟨S16384x4096, .f32⟩
  | .hbm, ⟨8, _⟩ => ⟨S16384x4096, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  transposes_S4096x1024_S1024x4096_1_0 : S4096x1024.Transposes [1, 0] S1024x4096
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  dot_S16384x1024_S1024x4096_S16384x4096_1_0_0_1_n_n_wf : DotDims.WF S16384x1024 S1024x4096 S16384x4096 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf

class Facts : Prop extends Facts₀ where

variable [Facts]
-- ==== Proof.LstmCell.lean ====
/-
  The single-step LSTM cell as ONE function of the argument arrays, over the extended reals.

  For a batch row with input row `x`, previous hidden row `h` and previous cell row `c` (each of width 1024), and
  weights `U : 1024 × 4096`, `W : 4096 × 1024`, the pre-activation of gate column `n` is
      preact x h U W n = Σ_k x k · U (k, n) + Σ_k h k · W (n, k)        (that is, (x·U + h·Wᵀ) n),
  its four 1024-wide column groups are the input, forget, candidate and output gates, and
      cell   d = σ (preact (1024 + d)) · c d + σ (preact d) · tanh (preact (2048 + d))
      hidden d = σ (preact (3072 + d)) · tanh (cell d).
  The cell is ROW-LOCAL: a result row depends on the same row of the three batch arrays and on all of `U`, `W`. That is
  what lets a kernel compute it one block of rows at a time.
  Last, the logistic function as a reference spells it, `1 / (1 + e^(-z))` with the two ones as float words, is `σ` at
  every extended real, the infinities included.
-/
import Idealize.ShloMosaic.PureOps.Ideal
import Idealize.ShloMosaic.Lib.ValueIdx
import Idealize.ShloMosaic.Lib.IdealHost

noncomputable section

open scoped BigOperators

namespace Cert.Lstm

open Idealize.ShloMosaic Idealize.ShloMosaic.ValueIdx

/-- Batch × width arrays (the input, the previous hidden state, the previous cell state, and both results). -/
abbrev SBatch : Shape := ⟨2, ![16384, 1024]⟩
/-- The input weights, width × four gates. -/
abbrev SInW : Shape := ⟨2, ![1024, 4096]⟩
/-- The recurrent weights, four gates × width. -/
abbrev SRecW : Shape := ⟨2, ![4096, 1024]⟩

/-- The pre-activation of gate column `n` for one batch row: `(x·U + h·Wᵀ) n`. -/
def preact (x h : Fin 1024 → EReal) (U : SInW.Idx → EReal) (W : SRecW.Idx → EReal) (n : Fin 4096) : EReal :=
  (∑ k : Fin 1024, x k * U (ix2 k n)) + ∑ k : Fin 1024, h k * W (ix2 n k)

/-- Column `d` of gate group `g` (0 input, 1 forget, 2 candidate, 3 output) among the 4096 gate columns. -/
def gateCol (g : Fin 4) (d : Fin 1024) : Fin 4096 := ⟨g.val * 1024 + d.val, by have := g.isLt; have := d.isLt; omega⟩

/-- The new cell state of one row at column `d`: forget gate times the old cell plus input gate times candidate. -/
def cellRow (x h c : Fin 1024 → EReal) (U : SInW.Idx → EReal) (W : SRecW.Idx → EReal) (d : Fin 1024) : EReal :=
  Ideal.logistic (preact x h U W (gateCol 1 d)) * c d
    + Ideal.logistic (preact x h U W (gateCol 0 d)) * Ideal.tanh (preact x h U W (gateCol 2 d))

/-- The new hidden state of one row at column `d`: output gate times tanh of the new cell state. -/
def hiddenRow (x h c : Fin 1024 → EReal) (U : SInW.Idx → EReal) (W : SRecW.Idx → EReal) (d : Fin 1024) : EReal :=
  Ideal.logistic (preact x h U W (gateCol 3 d)) * Ideal.tanh (cellRow x h c U W d)

/-- Row `b` of a batch array. -/
def rowOf (A : SBatch.Idx → EReal) (b : Fin 16384) : Fin 1024 → EReal := fun k => A (ix2 b k)

/-- The new cell state, as one function of the five argument arrays. -/
def cellState (X H C : SBatch.Idx → EReal) (U : SInW.Idx → EReal) (W : SRecW.Idx → EReal) : SBatch.Idx → EReal :=
  fun i => cellRow (rowOf X (i 0)) (rowOf H (i 0)) (rowOf C (i 0)) U W (i 1)

/-- The new hidden state, as one function of the five argument arrays. -/
def hiddenState (X H C : SBatch.Idx → EReal) (U : SInW.Idx → EReal) (W : SRecW.Idx → EReal) : SBatch.Idx → EReal :=
  fun i => hiddenRow (rowOf X (i 0)) (rowOf H (i 0)) (rowOf C (i 0)) U W (i 1)

/-- `1 / (1 + e^(-z))`, the ones written as the f32 word of 1.0, is the logistic function at every extended real. -/
theorem one_div_one_add_exp_neg (z : EReal) :
    Ideal.div (Ideal.ofBits .f32 0x3F800000#32) (Ideal.ofBits .f32 0x3F800000#32 + Ideal.exp (-z)) = Ideal.logistic z := by
  rw [Ideal.ofBits_one_f32]; rfl

end Cert.Lstm

end
-- ==== Proof.RefCell.lean ====
/-
  The reference computes the LSTM cell. Its program forms the gate pre-activations of the whole batch as
  `X·U + h0·(Wᵀ)` (two contractions over the width, the second against a transposed copy of `W`), cuts the four
  1024-wide gate groups out of the 4096 columns, applies `1 / (1 + e^(-z))` to the input, forget and output groups and
  `tanh` to the candidate group, and combines them with the old cell state. Read at an index (b, d), each stage is
  the row-local cell of row `b`: a contraction against the transposed `W` at (k, n) reads `W` at (n, k), a slice at
  column offset `g·1024` reads gate group `g`, and the spelt-out logistic is the logistic function.
-/
import proofs.«427169_j43112881717459_3_alg».proof.Proof.Gen.ReferenceIdeal.Read
import proofs.«427169_j43112881717459_3_alg».proof.Proof.LstmCell

noncomputable section

open scoped BigOperators

namespace Cert.Lstm.Ref

open Cert.ReferenceIdeal Cert.ReferenceIdeal.Read Idealize.ShloMosaic Idealize.ShloMosaic.ValueIdx Cert.Lstm

/-- A batch × width array of the reference, a width × gates one and a gates × width one, at the extended reals. -/
abbrev BatchArr : Type := (⟨S16384x1024, .f32⟩ : BufTy).Contents (Elt Ideal)
abbrev InWArr : Type := (⟨S1024x4096, .f32⟩ : BufTy).Contents (Elt Ideal)
abbrev RecWArr : Type := (⟨S4096x1024, .f32⟩ : BufTy).Contents (Elt Ideal)

/-- The left operand of either contraction at output (b, n) and contraction index k is read at (b, k). -/
theorem left_idx (b : Fin 16384) (n : Fin 4096) (k : Fin 1024) :
    lidx_main_v0 (ix2 b n) k = ix2 b k ∧ lidx_main_v2 (ix2 b n) k = ix2 b k :=
  ⟨funext fun a => match a with | ⟨0, _⟩ => rfl | ⟨1, _⟩ => rfl, funext fun a => match a with | ⟨0, _⟩ => rfl | ⟨1, _⟩ => rfl⟩

/-- The input weights are read at (k, n). -/
theorem inw_idx (b : Fin 16384) (n : Fin 4096) (k : Fin 1024) : ridx_main_v0 (ix2 b n) k = ix2 k n :=
  funext fun a => match a with | ⟨0, _⟩ => rfl | ⟨1, _⟩ => rfl

/-- The transposed recurrent weights at (k, n) are the recurrent weights at (n, k). -/
theorem recw_idx (b : Fin 16384) (n : Fin 4096) (k : Fin 1024) : idx_main_v1 (ridx_main_v2 (ix2 b n) k) = ix2 n k :=
  funext fun a => match a with | ⟨0, _⟩ => rfl | ⟨1, _⟩ => rfl

/-- The reference's gate pre-activations at (b, n) are the row-local ones of row b. -/
theorem gates_apply (X H : BatchArr) (U : InWArr) (W : RecWArr) (b : Fin 16384) (n : Fin 4096) :
    val_main_v3 (F := Ideal) X H U W (ix2 b n) = preact (rowOf X b) (rowOf H b) U W n := by
  rw [val_main_v3_apply, val_main_v0_apply, val_main_v2_apply]
  unfold preact rowOf
  show (∑ k : Fin 1024, X (lidx_main_v0 (ix2 b n) k) * U (ridx_main_v0 (ix2 b n) k))
      + (∑ k : Fin 1024, H (lidx_main_v2 (ix2 b n) k) * val_main_v1 (F := Ideal) W (ridx_main_v2 (ix2 b n) k)) = _
  congr 1
  · exact Finset.sum_congr rfl fun k _ => by rw [(left_idx b n k).1, inw_idx]
  · exact Finset.sum_congr rfl fun k _ => by rw [(left_idx b n k).2, val_main_v1_apply, recw_idx]

/-- The four slices read gate groups 0 to 3 of the same row. -/
theorem group_idx (b : Fin 16384) (d : Fin 1024) :
    idx_main_v4 (ix2 b d) = ix2 b (gateCol 0 d) ∧ idx_main_v5 (ix2 b d) = ix2 b (gateCol 1 d)
      ∧ idx_main_v6 (ix2 b d) = ix2 b (gateCol 2 d) ∧ idx_main_v7 (ix2 b d) = ix2 b (gateCol 3 d) := by
  have hd := d.isLt
  refine ⟨funext fun a => Fin.ext ?_, funext fun a => Fin.ext ?_, funext fun a => Fin.ext ?_, funext fun a => Fin.ext ?_⟩ <;>
    match a with
    | ⟨0, _⟩ => rfl
    | ⟨1, _⟩ => (first | (show d.val = 0 * 1024 + d.val; omega) | (show 1024 + d.val = 1 * 1024 + d.val; omega)
                       | (show 2048 + d.val = 2 * 1024 + d.val; omega) | (show 3072 + d.val = 3 * 1024 + d.val; omega))

/-- The input gate: the spelt-out logistic of gate group 0. -/
theorem input_gate (X H : BatchArr) (U : InWArr) (W : RecWArr) (b : Fin 16384) (d : Fin 1024) :
    val_main_v13 (F := Ideal) X H U W (ix2 b d) = Ideal.logistic (preact (rowOf X b) (rowOf H b) U W (gateCol 0 d)) := by
  rw [val_main_v13_apply, val_main_v12_apply, val_main_cst_0_apply, val_main_v11_apply, val_main_v10_apply, val_main_cst_apply,
    val_main_v9_apply, val_main_v8_apply, val_main_v4_apply, (group_idx b d).1, gates_apply]
  exact one_div_one_add_exp_neg _

/-- The forget gate: the spelt-out logistic of gate group 1. -/
theorem forget_gate (X H : BatchArr) (U : InWArr) (W : RecWArr) (b : Fin 16384) (d : Fin 1024) :
    val_main_v19 (F := Ideal) X H U W (ix2 b d) = Ideal.logistic (preact (rowOf X b) (rowOf H b) U W (gateCol 1 d)) := by
  rw [val_main_v19_apply, val_main_v18_apply, val_main_cst_2_apply, val_main_v17_apply, val_main_v16_apply, val_main_cst_1_apply,
    val_main_v15_apply, val_main_v14_apply, val_main_v5_apply, (group_idx b d).2.1, gates_apply]
  exact one_div_one_add_exp_neg _

/-- The candidate: tanh of gate group 2. -/
theorem candidate (X H : BatchArr) (U : InWArr) (W : RecWArr) (b : Fin 16384) (d : Fin 1024) :
    val_main_v20 (F := Ideal) X H U W (ix2 b d) = Ideal.tanh (preact (rowOf X b) (rowOf H b) U W (gateCol 2 d)) := by
  rw [val_main_v20_apply, val_main_v6_apply, (group_idx b d).2.2.1, gates_apply]
  rfl

/-- The output gate: the spelt-out logistic of gate group 3. -/
theorem output_gate (X H : BatchArr) (U : InWArr) (W : RecWArr) (b : Fin 16384) (d : Fin 1024) :
    val_main_v26 (F := Ideal) X H U W (ix2 b d) = Ideal.logistic (preact (rowOf X b) (rowOf H b) U W (gateCol 3 d)) := by
  rw [val_main_v26_apply, val_main_v25_apply, val_main_cst_4_apply, val_main_v24_apply, val_main_v23_apply, val_main_cst_3_apply,
    val_main_v22_apply, val_main_v21_apply, val_main_v7_apply, (group_idx b d).2.2.2, gates_apply]
  exact one_div_one_add_exp_neg _

/-- The reference's second result is the new cell state. -/
theorem cell_eq (X H C : BatchArr) (U : InWArr) (W : RecWArr) :
    val_main_v29 (F := Ideal) X H C U W = cellState X H C U W := by
  funext i
  obtain ⟨b, d, rfl⟩ : ∃ (b : Fin 16384) (d : Fin 1024), i = ix2 b d := ⟨i 0, i 1, eq_ix2 i⟩
  rw [val_main_v29_apply, val_main_v27_apply, val_main_v28_apply, forget_gate, input_gate, candidate]
  rfl

/-- The reference's first result is the new hidden state. -/
theorem hidden_eq (X H C : BatchArr) (U : InWArr) (W : RecWArr) :
    val_main_v31 (F := Ideal) X H C U W = hiddenState X H C U W := by
  funext i
  obtain ⟨b, d, rfl⟩ : ∃ (b : Fin 16384) (d : Fin 1024), i = ix2 b d := ⟨i 0, i 1, eq_ix2 i⟩
  rw [val_main_v31_apply, output_gate, val_main_v30_apply, cell_eq]
  rfl

end Cert.Lstm.Ref

end
-- ==== Proof.KernelGates.lean ====
/-
  The kernel's gate pre-activations for one block of 256 batch rows. The body multiplies the block of input rows by
  the input weights (contracting the width against the weights' FIRST axis) and the block of hidden rows by the
  recurrent weights kept in their gates × width orientation (contracting the width against the weights' SECOND axis,
  which is the product with the transpose), both into a zero accumulator, and adds the two. Read at row `p` of the block and gate
  column `n` this is the row-local pre-activation `Σ_k x k · U (k, n) + Σ_k h k · W (n, k)` of that row: at the extended
  reals a change of float format is the identity, a contraction into zero is the plain sum over the contracted axis,
  and a shape cast to the same shape does nothing.
-/
import proofs.«427169_j43112881717459_3_alg».proof.Proof.Gen.KernelIdeal.Skeleton
import proofs.«427169_j43112881717459_3_alg».proof.Proof.LstmCell
import Idealize.ShloMosaic.Lib.Pipeline.Value
import Idealize.ShloMosaic.Lib.ValueIdx
import Idealize.ShloMosaic.PureOps.Ideal.Laws

noncomputable section

open scoped BigOperators

namespace Cert.Lstm.Kernel

open Cert.KernelIdeal Cert.KernelIdeal.Gen Idealize.ShloMosaic Idealize.ShloMosaic.ValueIdx Cert.Lstm

/-! ## The product with the input weights: left axis 1 against right axis 0 -/

theorem inw_lhs_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem inw_lhs_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem inw_rhs_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem inw_rhs_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- Rows times input weights, into zero, at (p, n): the sum over the width of `A (p, k) · B (k, n)`. -/
theorem inw_apply (A : FVec Ideal S256x1024 .bf16) (B : FVec Ideal S1024x4096 .bf16) (p : Fin 256) (n : Fin 4096) :
    matmul dot_S256x1024_S1024x4096_S256x4096_1_0_0_1_n_n none A B (constant (F := Ideal) S256x4096 .f32 0x00000000#32) (ix2 p n)
      = ∑ k : Fin 1024, A (ix2 p k) * B (ix2 k n) := by
  simp only [matmul]
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p n) ((contrEquiv1 dot_S256x1024_S1024x4096_S256x4096_1_0_0_1_n_n 1024 rfl rfl).symm k) = ix2 p k := funext fun a => Fin.ext (by
    match a with
    | ⟨0, _⟩ => exact inw_lhs_0 _ _
    | ⟨1, _⟩ => exact (inw_lhs_1 _ _).trans hk)
  have er : dot_S256x1024_S1024x4096_S256x4096_1_0_0_1_n_n.rhsIdx (ix2 p n) ((contrEquiv1 dot_S256x1024_S1024x4096_S256x4096_1_0_0_1_n_n 1024 rfl rfl).symm k) = ix2 k n := funext fun a => Fin.ext (by
    match a with
    | ⟨0, _⟩ => exact (inw_rhs_0 _ _).trans hk
    | ⟨1, _⟩ => exact inw_rhs_1 _ _)
  rw [el, er]

/-! ## The product with the recurrent weights: left axis 1 against right axis 1 (the transpose's product) -/

theorem recw_lhs_0 (i : S256x4096.Idx) (q : dot_S256x1024_S4096x1024_S256x4096_1_1_0_0_n_n.contr.Idx) :
    (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
  rfl
theorem recw_lhs_1 (i : S256x4096.Idx) (q : dot_S256x1024_S4096x1024_S256x4096_1_1_0_0_n_n.contr.Idx) :
    (dot_S256x1024_S4096x1024_S256x4096_1_1_0_0_n_n.lhsIdx i q 1).val = (q ⟨0, by decide⟩).val :=
  dot_S256x1024_S4096x1024_S256x4096_1_1_0_0_n_n.lhsIdx_val_of_single rfl i q
theorem recw_rhs_0 (i : S256x4096.Idx) (q : dot_S256x1024_S4096x1024_S256x4096_1_1_0_0_n_n.contr.Idx) :
    (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
  rfl
theorem recw_rhs_1 (i : S256x4096.Idx) (q : dot_S256x1024_S4096x1024_S256x4096_1_1_0_0_n_n.contr.Idx) :
    (dot_S256x1024_S4096x1024_S256x4096_1_1_0_0_n_n.rhsIdx i q 1).val = (q ⟨0, by decide⟩).val :=
  dot_S256x1024_S4096x1024_S256x4096_1_1_0_0_n_n.rhsIdx_val_of_single rfl i q

/-- Rows times the transpose of the recurrent weights, into zero, at (p, n): the sum over the width of `A (p, k) · B (n, k)`. -/
theorem recw_apply (A : FVec Ideal S256x1024 .bf16) (B : FVec Ideal S4096x1024 .bf16) (p : Fin 256) (n : Fin 4096) :
    matmul dot_S256x1024_S4096x1024_S256x4096_1_1_0_0_n_n none A B (constant (F := Ideal) S256x4096 .f32 0x00000000#32) (ix2 p n)
      = ∑ k : Fin 1024, A (ix2 p k) * B (ix2 n k) := by
  simp only [matmul]
  rw [Ideal.matmul_constant_zero_apply, ← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 p n) ((contrEquiv1 dot_S256x1024_S4096x1024_S256x4096_1_1_0_0_n_n 1024 rfl rfl).symm k) = ix2 p k := funext fun a => Fin.ext (by
    match a with
    | ⟨0, _⟩ => exact recw_lhs_0 _ _
    | ⟨1, _⟩ => exact (recw_lhs_1 _ _).trans hk)
  have er : dot_S256x1024_S4096x1024_S256x4096_1_1_0_0_n_n.rhsIdx (ix2 p n) ((contrEquiv1 dot_S256x1024_S4096x1024_S256x4096_1_1_0_0_n_n 1024 rfl rfl).symm k) = ix2 n k := funext fun a => Fin.ext (by
    match a with
    | ⟨0, _⟩ => exact recw_rhs_0 _ _
    | ⟨1, _⟩ => exact (recw_rhs_1 _ _).trans hk)
  rw [el, er]

/-! ## The body's pre-activations -/

/-- Row `p` of a 256-row block. -/
def blockRow (P : S256x1024.Idx → EReal) (p : Fin 256) : Fin 1024 → EReal := fun k => P (ix2 p k)

/-- The body's sum of the two products, at row `p` of the block and gate column `n`, is that row's pre-activation. -/
theorem preact_apply (P0 P1 : Vec Ideal S256x1024 .f32) (P2 : Vec Ideal S1024x4096 .bf16) (P3 : Vec Ideal S4096x1024 .bf16)
    (p : Fin 256) (n : Fin 4096) :
    k0_pay1 (F := Ideal) P0 P1 P2 P3 (ix2 p n) = preact (blockRow P0 p) (blockRow P1 p) P2 P3 n := by
  unfold k0_pay1
  show matmul dot_S256x1024_S1024x4096_S256x4096_1_0_0_1_n_n none (truncf .bf16 P0 bitsLt_bf16_f32) (shapeCast S1024x4096 P2 shapeCasts_S1024x4096_S1024x4096)
        (constant (F := Ideal) S256x4096 .f32 0x00000000#32) (ix2 p n)
      + matmul dot_S256x1024_S4096x1024_S256x4096_1_1_0_0_n_n none (truncf .bf16 P1 bitsLt_bf16_f32) (shapeCast S4096x1024 P3 shapeCasts_S4096x1024_S4096x1024)
        (constant (F := Ideal) S256x4096 .f32 0x00000000#32) (ix2 p n) = _
  rw [shapeCast_self, shapeCast_self, inw_apply, recw_apply]
  rfl

end Cert.Lstm.Kernel

end
-- ==== Proof.KernelBlocks.lean ====
/-
  From blocks to arrays. The kernel walks the batch in 64 blocks of 256 rows. At block `t` it stages rows
  `256·t … 256·t + 255` of the input, the previous hidden state and the previous cell state, and the whole of both weight
  arrays (which the program first copies to a narrower float format: at the extended reals the copies ARE the
  weights), computes the cell for those rows, and writes rows `256·t … 256·t + 255` of both results. Because the cell
  is row-local, what block `t` writes is block `t` of the cell of the whole arrays; the 64 blocks cover every row; so
  each result array ends as the cell of the argument arrays.
-/
import proofs.«427169_j43112881717459_3_alg».proof.Proof.Gen.KernelIdeal.Value
import proofs.«427169_j43112881717459_3_alg».proof.Proof.KernelGates
import Idealize.ShloMosaic.Lib.StableHlo.Run

noncomputable section

open scoped BigOperators

namespace Cert.Lstm.Kernel

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.Lstm
open Idealize.ShloMosaic.Pipeline (Dat)

variable (m : (ℓ : Loc nD τ sig) → Buf (Elt Ideal) ℓ) (ρ : Dev nD → PrngReg)

/-! ## One block: the body's two stored values at (p, d) are the cell of row p of the staged blocks -/

/-- The stored hidden-state block at row `p`, column `d`: the output gate (columns 3072 + d) times tanh of the new cell. -/
theorem hidden_block (P0 P1 P4 : Vec Ideal S256x1024 .f32) (P2 : Vec Ideal S1024x4096 .bf16) (P3 : Vec Ideal S4096x1024 .bf16)
    (p : Fin 256) (d : Fin 1024) :
    E5 (F := Ideal) P0 P1 P2 P3 P4 (ix2 p d) = hiddenRow (blockRow P0 p) (blockRow P1 p) (blockRow P4 p) P2 P3 d := by
  have hd := d.isLt
  have i0 : ix5_0 (ix2 p d) = ix2 p (gateCol 3 d) := funext fun a => Fin.ext (by
    match a with | ⟨0, _⟩ => rfl | ⟨1, _⟩ => show d.val + 3072 = 3 * 1024 + d.val; omega)
  have i1 : ix5_1 (ix2 p d) = ix2 p (gateCol 1 d) := funext fun a => Fin.ext (by
    match a with | ⟨0, _⟩ => rfl | ⟨1, _⟩ => show d.val + 1024 = 1 * 1024 + d.val; omega)
  have i2 : ix5_2 (ix2 p d) = ix2 p d := funext fun a => Fin.ext (by
    match a with | ⟨0, _⟩ => rfl | ⟨1, _⟩ => rfl)
  have i3 : ix5_3 (ix2 p d) = ix2 p (gateCol 0 d) := funext fun a => Fin.ext (by
    match a with | ⟨0, _⟩ => rfl | ⟨1, _⟩ => show d.val = 0 * 1024 + d.val; omega)
  have i4 : ix5_4 (ix2 p d) = ix2 p (gateCol 2 d) := funext fun a => Fin.ext (by
    match a with | ⟨0, _⟩ => rfl | ⟨1, _⟩ => show d.val + 2048 = 2 * 1024 + d.val; omega)
  show FloatOps.mulf (FloatOps.logistic (k0_pay1 P0 P1 P2 P3 (ix5_0 (ix2 p d))))
      (FloatOps.tanh (FloatOps.addf (FloatOps.mulf (FloatOps.logistic (k0_pay1 P0 P1 P2 P3 (ix5_1 (ix2 p d)))) (P4 (ix5_2 (ix2 p d))))
        (FloatOps.mulf (FloatOps.logistic (k0_pay1 P0 P1 P2 P3 (ix5_3 (ix2 p d)))) (FloatOps.tanh (k0_pay1 P0 P1 P2 P3 (ix5_4 (ix2 p d))))))) = _
  rw [i0, i1, i2, i3, i4, preact_apply, preact_apply, preact_apply, preact_apply]
  rfl

/-- The stored cell-state block at row `p`, column `d`: forget gate times old cell plus input gate times candidate. -/
theorem cell_block (P0 P1 P4 : Vec Ideal S256x1024 .f32) (P2 : Vec Ideal S1024x4096 .bf16) (P3 : Vec Ideal S4096x1024 .bf16)
    (p : Fin 256) (d : Fin 1024) :
    E6 (F := Ideal) P0 P1 P2 P3 P4 (ix2 p d) = cellRow (blockRow P0 p) (blockRow P1 p) (blockRow P4 p) P2 P3 d := by
  have hd := d.isLt
  have i0 : ix6_0 (ix2 p d) = ix2 p (gateCol 1 d) := funext fun a => Fin.ext (by
    match a with | ⟨0, _⟩ => rfl | ⟨1, _⟩ => show d.val + 1024 = 1 * 1024 + d.val; omega)
  have i1 : ix6_1 (ix2 p d) = ix2 p d := funext fun a => Fin.ext (by
    match a with | ⟨0, _⟩ => rfl | ⟨1, _⟩ => rfl)
  have i2 : ix6_2 (ix2 p d) = ix2 p (gateCol 0 d) := funext fun a => Fin.ext (by
    match a with | ⟨0, _⟩ => rfl | ⟨1, _⟩ => show d.val = 0 * 1024 + d.val; omega)
  have i3 : ix6_3 (ix2 p d) = ix2 p (gateCol 2 d) := funext fun a => Fin.ext (by
    match a with | ⟨0, _⟩ => rfl | ⟨1, _⟩ => show d.val + 2048 = 2 * 1024 + d.val; omega)
  show FloatOps.addf (FloatOps.mulf (FloatOps.logistic (k0_pay1 P0 P1 P2 P3 (ix6_0 (ix2 p d)))) (P4 (ix6_1 (ix2 p d))))
      (FloatOps.mulf (FloatOps.logistic (k0_pay1 P0 P1 P2 P3 (ix6_2 (ix2 p d)))) (FloatOps.tanh (k0_pay1 P0 P1 P2 P3 (ix6_3 (ix2 p d))))) = _
  rw [i0, i1, i2, i3, preact_apply, preact_apply, preact_apply]
  rfl

/-! ## Where each window's block sits in its array -/

theorem zero_offsets : (![0, 0] : Fin 2 → Nat) = fun _ => 0 := funext fun a => by fin_cases a <;> rfl

/-- The index maps over the 64 blocks: the three batch inputs and both results move down the rows with the block number, and the two
    weight windows stay at the origin. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `p` of block `t` is row `256·t + p` of the batch. -/
def batchRow (t : Fin cfg0.N) (p : Fin 256) : Fin 16384 :=
  ⟨t.val * 256 + p.val, by have ht : t.val < 64 := lt_of_lt_of_eq t.isLt N_0; have := p.isLt; omega⟩

/-- Row `p` of the input's block at `t` is row `256·t + p` of the input. -/
theorem input_rows (c : Dev nD) (t : Fin cfg0.N) (p : Fin 256) :
    blockRow (iblk m c 0 t) p = rowOf (V m c main_arg0) (batchRow t p) := by
  obtain ⟨e0, e1, -⟩ := block_indices t
  funext k
  have hk := k.isLt
  show V m c main_arg0 (((cfg0.win 0).blk t).view.emb (ix2 p k)) = V m c main_arg0 (ix2 (batchRow t p) k)
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

/-- The same for the previous hidden state. -/
theorem hidden_rows (c : Dev nD) (t : Fin cfg0.N) (p : Fin 256) :
    blockRow (iblk m c 1 t) p = rowOf (V m c main_arg1) (batchRow t p) := by
  obtain ⟨-, -, e0, e1, -⟩ := block_indices t
  funext k
  have hk := k.isLt
  show V m c main_arg1 (((cfg0.win 1).blk t).view.emb (ix2 p k)) = V m c main_arg1 (ix2 (batchRow t p) k)
  refine congrArg _ (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

/-- The same for the previous cell state. -/
theorem cell_rows (c : Dev nD) (t : Fin cfg0.N) (p : Fin 256) :
    blockRow (iblk m c 2 t) p = rowOf (V m c main_arg2) (batchRow t p) := by
  obtain ⟨-, -, -, -, e0, e1, -⟩ := block_indices t
  funext k
  have hk := k.isLt
  show V m c main_arg2 (((cfg0.win 2).blk t).view.emb (ix2 p k)) = V m c main_arg2 (ix2 (batchRow t p) k)
  refine congrArg _ (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * k.val = k.val; omega

/-- The input-weight window's block is the whole array, at every point. -/
theorem inw_block (c : Dev nD) (t : Fin cfg0.N) : (iblk m c 3 t : S1024x4096.Idx → EReal) = V m c main_v0 := by
  obtain ⟨-, -, -, -, -, -, e0, e1, -⟩ := block_indices t
  funext y
  have h0 : (y 0).val < 1024 := (y 0).isLt
  have h1 : (y 1).val < 4096 := (y 1).isLt
  show V m c main_v0 (((cfg0.win 3).blk t).view.emb y) = V m c main_v0 y
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 4096 + 1 * (y 1).val = (y 1).val; omega

/-- The recurrent-weight window's block is the whole array, at every point. -/
theorem recw_block (c : Dev nD) (t : Fin cfg0.N) : (iblk m c 4 t : S4096x1024.Idx → EReal) = V m c main_v1 := by
  obtain ⟨-, -, -, -, -, -, -, -, e0, e1, -⟩ := block_indices t
  funext y
  have h0 : (y 0).val < 4096 := (y 0).isLt
  have h1 : (y 1).val < 1024 := (y 1).isLt
  show V m c main_v1 (((cfg0.win 4).blk t).view.emb y) = V m c main_v1 y
  refine congrArg _ (funext fun a => Fin.ext ?_)
  match a with
  | ⟨0, _⟩ => show win0_4.index t (0 : Fin 2) * 4096 + 1 * (y 0).val = (y 0).val; omega
  | ⟨1, _⟩ => show win0_4.index t (1 : Fin 2) * 1024 + 1 * (y 1).val = (y 1).val; omega

/-- Entry (p, d) of the hidden-state result's block at `t` is entry (256·t + p, d) of the array. -/
theorem hidden_out_idx (t : Fin cfg0.N) (p : Fin 256) (d : Fin 1024) :
    ((cfg0.win 5).blk t).view.emb (ix2 p d) = ix2 (batchRow t p) d := by
  obtain ⟨-, -, -, -, -, -, -, -, -, -, e0, e1, -⟩ := block_indices t
  have hd := d.isLt
  refine funext fun a => Fin.ext ?_
  match a with
  | ⟨0, _⟩ => show win0_5.index t (0 : Fin 2) * 256 + 1 * p.val = t.val * 256 + p.val; omega
  | ⟨1, _⟩ => show win0_5.index t (1 : Fin 2) * 1024 + 1 * d.val = d.val; omega

/-- The same for the cell-state result. -/
theorem cell_out_idx (t : Fin cfg0.N) (p : Fin 256) (d : Fin 1024) :
    ((cfg0.win 6).blk t).view.emb (ix2 p d) = ix2 (batchRow t p) d := by
  obtain ⟨-, -, -, -, -, -, -, -, -, -, -, -, e0, e1⟩ := block_indices t
  have hd := d.isLt
  refine funext fun a => Fin.ext ?_
  match a with
  | ⟨0, _⟩ => show win0_6.index t (0 : Fin 2) * 256 + 1 * p.val = t.val * 256 + p.val; omega
  | ⟨1, _⟩ => show win0_6.index t (1 : Fin 2) * 1024 + 1 * d.val = d.val; omega

/-! ## What point `t` writes back is block `t` of the cell of the arrays as the region finds them -/

theorem flushed_hidden (c : Dev nD) (t : Fin cfg0.N) :
    (dats m 0 c).flushed 5 t = ((cfg0.win 5).blk t).view.read (Elt Ideal)
      (hiddenState (V m c main_arg0) (V m c main_arg1) (V m c main_arg2) (V m c main_v0) (V m c main_v1)) := by
  rw [flushed5]
  unfold out0_5
  simp only [View.ld_unit_zero (S := S256x1024) zero_offsets, View.ld_unit_zero (S := S1024x4096) zero_offsets,
    View.ld_unit_zero (S := S4096x1024) zero_offsets]
  funext y
  obtain ⟨p, d, rfl⟩ : ∃ (p : Fin 256) (d : Fin 1024), y = ix2 p d := ⟨y 0, y 1, eq_ix2 y⟩
  refine (canon5_eq (F := Ideal) (iblk m c 0 t) (iblk m c 1 t) (iblk m c 3 t) (iblk m c 4 t) (iblk m c 2 t) (ix2 p d)).trans ?_
  refine (hidden_block (iblk m c 0 t) (iblk m c 1 t) (iblk m c 2 t) (iblk m c 3 t) (iblk m c 4 t) p d).trans ?_
  rw [input_rows m c t p, hidden_rows m c t p, cell_rows m c t p, inw_block m c t, recw_block m c t]
  show _ = hiddenState (V m c main_arg0) (V m c main_arg1) (V m c main_arg2) (V m c main_v0) (V m c main_v1)
    (((cfg0.win 5).blk t).view.emb (ix2 p d))
  rw [hidden_out_idx t p d]
  rfl

theorem flushed_cell (c : Dev nD) (t : Fin cfg0.N) :
    (dats m 0 c).flushed 6 t = ((cfg0.win 6).blk t).view.read (Elt Ideal)
      (cellState (V m c main_arg0) (V m c main_arg1) (V m c main_arg2) (V m c main_v0) (V m c main_v1)) := by
  rw [flushed6]
  unfold out0_6
  simp only [View.ld_unit_zero (S := S256x1024) zero_offsets, View.ld_unit_zero (S := S1024x4096) zero_offsets,
    View.ld_unit_zero (S := S4096x1024) zero_offsets]
  funext y
  obtain ⟨p, d, rfl⟩ : ∃ (p : Fin 256) (d : Fin 1024), y = ix2 p d := ⟨y 0, y 1, eq_ix2 y⟩
  refine (canon6_eq (F := Ideal) (iblk m c 0 t) (iblk m c 1 t) (iblk m c 3 t) (iblk m c 4 t) (iblk m c 2 t) (ix2 p d)).trans ?_
  refine (cell_block (iblk m c 0 t) (iblk m c 1 t) (iblk m c 2 t) (iblk m c 3 t) (iblk m c 4 t) p d).trans ?_
  rw [input_rows m c t p, hidden_rows m c t p, cell_rows m c t p, inw_block m c t, recw_block m c t]
  show _ = cellState (V m c main_arg0) (V m c main_arg1) (V m c main_arg2) (V m c main_v0) (V m c main_v1)
    (((cfg0.win 6).blk t).view.emb (ix2 p d))
  rw [cell_out_idx t p d]
  rfl

/-! ## The 64 blocks cover every row -/

theorem mem_hidden_blk (t : Fin cfg0.N) (i : S16384x1024.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v2_0).slice (win0_5.rect t)).set ↔ _
  rw [View.set_slice_whole, Rect.mem_set_unit]
  exact Iff.rfl

theorem mem_cell_blk (t : Fin cfg0.N) (i : S16384x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v2_1).slice (win0_6.rect t)).set ↔ _
  rw [View.set_slice_whole, Rect.mem_set_unit]
  exact Iff.rfl

/-- Row `r` lies in block `r / 256`. -/
theorem hidden_cover (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  obtain ⟨t, ht⟩ : ∃ t : Fin cfg0.N, t.val = (i 0).val / 256 :=
    ⟨⟨(i 0).val / 256, by show (i 0).val / 256 < grid0.N; rw [N_0]; omega⟩, rfl⟩
  obtain ⟨-, -, -, -, -, -, -, -, -, -, e0, e1, -⟩ := block_indices t
  refine ⟨t, flush0_5 t, ?_⟩
  rw [mem_hidden_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

theorem cell_cover (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  obtain ⟨t, ht⟩ : ∃ t : Fin cfg0.N, t.val = (i 0).val / 256 :=
    ⟨⟨(i 0).val / 256, by show (i 0).val / 256 < grid0.N; rw [N_0]; omega⟩, rfl⟩
  obtain ⟨-, -, -, -, -, -, -, -, -, -, -, -, e0, e1⟩ := block_indices t
  refine ⟨t, flush0_6 t, ?_⟩
  rw [mem_cell_blk]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-! ## The weights as the region finds them are the weights -/

/-- The narrowed copy of the input weights, at the extended reals, is the input weights. -/
theorem inw_at_entry (c : Dev nD) :
    (V m c main_v0 : S1024x4096.Idx → EReal) = m ((c : Thread nD τ).loc main_arg3) := by
  dsimp only [V, hostOps0]; after_results; rfl

/-- The narrowed copy of the recurrent weights, at the extended reals, is the recurrent weights. -/
theorem recw_at_entry (c : Dev nD) :
    (V m c main_v1 : S4096x1024.Idx → EReal) = m ((c : Thread nD τ).loc main_arg4) := by
  dsimp only [V, hostOps0]; after_results; rfl

/-! ## The result arrays after the run -/

theorem final_hidden (c : Dev nD) :
    (dats m 0 c).arrAt 5 cfg0.N = hiddenState (m ((c : Thread nD τ).loc main_arg0)) (m ((c : Thread nD τ).loc main_arg1))
      (m ((c : Thread nD τ).loc main_arg2)) (m ((c : Thread nD τ).loc main_arg3)) (m ((c : Thread nD τ).loc main_arg4)) := by
  rw [(dats m 0 c).arrAt_eq_of_cover 5 _ (fun t _ => flushed_hidden m c t) hidden_cover,
    V_main_arg0, V_main_arg1, V_main_arg2, inw_at_entry, recw_at_entry]

theorem final_cell (c : Dev nD) :
    (dats m 0 c).arrAt 6 cfg0.N = cellState (m ((c : Thread nD τ).loc main_arg0)) (m ((c : Thread nD τ).loc main_arg1))
      (m ((c : Thread nD τ).loc main_arg2)) (m ((c : Thread nD τ).loc main_arg3)) (m ((c : Thread nD τ).loc main_arg4)) := by
  rw [(dats m 0 c).arrAt_eq_of_cover 6 _ (fun t _ => flushed_cell m c t) cell_cover,
    V_main_arg0, V_main_arg1, V_main_arg2, inw_at_entry, recw_at_entry]

/-- Every weakly fair execution of the kernel ends with the first result at the new hidden state and the second at
    the new cell state of the argument arrays, the arguments unchanged. -/
theorem run_cell : θ_run defs (onTc (τ := τ) (main (F := Ideal))) ⟨m, fun _ => 0, ρ⟩ fun r => ∀ c : Dev nD,
      r.2.mem ((c : Thread nD τ).loc main_v2_0) = hiddenState (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_v2_1) = cellState (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_hidden m c), (h c).2.1.trans (final_cell m c), (h c).2.2⟩)
    (run_blocks m ρ)

end Cert.Lstm.Kernel

end
-- ==== Proof.lean ====
/-
  A single-step LSTM cell: the kernel, which walks the batch in blocks of 256 rows with both weight arrays resident,
  against the plain array program. Over the extended reals both compute, for every batch row,
      gates  = x·U + h·Wᵀ                      (4096 columns: input, forget, candidate, output groups of 1024)
      cell   = σ(forget)·c + σ(input)·tanh(candidate)
      hidden = σ(output)·tanh(cell),
  the same operations in the same order, so no law of arithmetic beyond reading each side at an index is needed and
  the finiteness of the inputs is never used: a change of float format is the identity, a contraction into a zero
  accumulator is the plain sum, contracting against the second axis of `W` is contracting against the first axis of
  its transpose, the kernel's logistic and the reference's `1 / (1 + e^(-z))` are one function at every extended real,
  and row-locality of the cell turns the block-by-block computation into the whole-array one.
  The modules: LstmCell (the cell as one function of the argument arrays), RefCell (the reference's two results are
  that function), KernelGates (the kernel's pre-activations for a block), KernelBlocks (blocks to arrays, and the
  kernel's run ending at that function). The kernel's idealization rewrote nothing, so it is preserved trivially.
-/
import proofs.«427169_j43112881717459_3_alg».proof.Defs
import proofs.«427169_j43112881717459_3_alg».proof.Proof.Gen.Kernel
import proofs.«427169_j43112881717459_3_alg».proof.Proof.Gen.Kernel.Skeleton
import proofs.«427169_j43112881717459_3_alg».proof.Proof.Gen.Kernel.Launch
import proofs.«427169_j43112881717459_3_alg».proof.Proof.Gen.Kernel.Points
import proofs.«427169_j43112881717459_3_alg».proof.Proof.Gen.Kernel.Frame
import proofs.«427169_j43112881717459_3_alg».proof.Proof.Gen.KernelIdeal
import proofs.«427169_j43112881717459_3_alg».proof.Proof.Gen.KernelIdeal.Skeleton
import proofs.«427169_j43112881717459_3_alg».proof.Proof.Gen.KernelIdeal.Launch
import proofs.«427169_j43112881717459_3_alg».proof.Proof.Gen.KernelIdeal.Points
import proofs.«427169_j43112881717459_3_alg».proof.Proof.Gen.KernelIdeal.Frame
import proofs.«427169_j43112881717459_3_alg».proof.Proof.Gen.ReferenceIdeal
import proofs.«427169_j43112881717459_3_alg».proof.Proof.Gen.Pre_finite_inputs
import proofs.«427169_j43112881717459_3_alg».proof.Proof.Gen.KernelIdeal.Value
import proofs.«427169_j43112881717459_3_alg».proof.Proof.Gen.ReferenceIdeal.Run
import proofs.«427169_j43112881717459_3_alg».proof.Proof.Gen.ReferenceIdeal.Read
import proofs.«427169_j43112881717459_3_alg».proof.Proof.LstmCell
import proofs.«427169_j43112881717459_3_alg».proof.Proof.RefCell
import proofs.«427169_j43112881717459_3_alg».proof.Proof.KernelGates
import proofs.«427169_j43112881717459_3_alg».proof.Proof.KernelBlocks
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, its results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the five arguments, the kernel ends at the cell of its arguments and the reference at
    the cell of its own: the hidden state first, the cell state second. -/
theorem algebraic : Cert.algebraic_KernelIdeal_ReferenceIdeal := by
  intro m ρ m' ρ' _ hagree
  refine ⟨_, _, Cert.Lstm.Kernel.run_cell m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v31_eq, Cert.Lstm.Ref.hidden_eq, (hagree c).1, (hagree c).2.1, (hagree c).2.2.1,
      (hagree c).2.2.2.1, (hagree c).2.2.2.2]
  · rw [Cert.ReferenceIdeal.Read.val_main_v29_eq, Cert.Lstm.Ref.cell_eq, (hagree c).1, (hagree c).2.1, (hagree c).2.2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
